-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S4096x4096, .bf16⟩
  | .hbm, ⟨5, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024, .f32⟩
  | .local _ .vmem, ⟨5, _⟩ => ⟨S1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Spec.lean ====
/-
  The specification both programs are compared with, and the one law of sums that joins them.

  The operation is a dense layer on 4096-vectors: for a 4096×4096 matrix x, a 4096×4096 matrix w and a bias row b,
  entry (r, c) of the result is  ∑ₖ x[r,k]·w[k,c] + b[c],  the dot of row r of x with column c of w over all 4096
  values of k, plus the bias of column c.  Everything is read over the extended reals, where addition is still
  commutative and associative (the infinities included), so a sum may be cut into consecutive chunks and the chunks
  added one after another: no finiteness of the entries is needed for that, and none is used.
-/
import Idealize.ShloMosaic.Lib.ValueIdx
import Mathlib.Algebra.BigOperators.Fin
import Mathlib.Logic.Equiv.Fin.Basic

noncomputable section

open scoped BigOperators

namespace Cert.Spec

open Idealize.ShloMosaic Idealize.ShloMosaic.ValueIdx

/-- A 4096×4096 array of extended reals. -/
abbrev Mat : Type := (⟨2, ![4096, 4096]⟩ : Shape).Idx → EReal
/-- A 4096-vector of extended reals. -/
abbrev Row : Type := (⟨1, ![4096]⟩ : Shape).Idx → EReal

/-- The row coordinate of an index of a 4096×4096 array, as a number below 4096. -/
abbrev rowOf (i : (⟨2, ![4096, 4096]⟩ : Shape).Idx) : Fin 4096 := ⟨(i 0).val, (i 0).isLt⟩
/-- Its column coordinate. -/
abbrev colOf (i : (⟨2, ![4096, 4096]⟩ : Shape).Idx) : Fin 4096 := ⟨(i 1).val, (i 1).isLt⟩

/-- x·w + b: entry (r, c) is the full dot of x's row r with w's column c, plus b's entry c. -/
def linear (x w : Mat) (b : Row) : Mat := fun i =>
  (∑ k : Fin 4096, x (ix2 (rowOf i) k) * w (ix2 k (colOf i))) + b (ix1 (colOf i))

/-- The same, at an index given by its two coordinates. -/
theorem linear_apply (x w : Mat) (b : Row) (r c : Fin 4096) :
    linear x w b (ix2 r c) = (∑ k : Fin 4096, x (ix2 r k) * w (ix2 k c)) + b (ix1 c) := rfl

/-- Position k of chunk s, when 4096 positions are cut into four consecutive chunks of 1024. -/
abbrev inChunk (s : Fin 4) (k : Fin 1024) : Fin 4096 :=
  ⟨1024 * s.val + k.val, by have := s.isLt; have := k.isLt; omega⟩

/-- A sum over 4096 positions is the sum, over the four chunks, of each chunk's 1024 terms. -/
theorem sum_by_chunks {β : Type*} [AddCommMonoid β] (f : Fin 4096 → β) :
    ∑ k : Fin 4096, f k = ∑ s : Fin 4, ∑ k : Fin 1024, f (inChunk s k) := by
  rw [← Equiv.sum_comp (finProdFinEquiv.trans (finCongr (show 4 * 1024 = 4096 from rfl))) f, Fintype.sum_prod_type]
  refine Finset.sum_congr rfl fun s _ => Finset.sum_congr rfl fun k _ => congrArg f (Fin.ext ?_)
  show k.val + 1024 * s.val = 1024 * s.val + k.val
  omega

/-- THE LAW THAT JOINS THE TWO SIDES.  If `part s` is the dot of x's row r with w's column c restricted to chunk s
    of the contraction, then starting from zero, adding the four partial dots one after another and then the bias
    is entry (r, c) of x·w + b. -/
theorem linear_of_chunks (x w : Mat) (b : Row) (r c : Fin 4096) (part : Fin 4 → EReal)
    (hpart : ∀ s : Fin 4, part s = ∑ k : Fin 1024, x (ix2 r (inChunk s k)) * w (ix2 (inChunk s k) c)) :
    (0 + ∑ s : Fin 4, part s) + b (ix1 c) = linear x w b (ix2 r c) := by
  rw [linear_apply, zero_add, sum_by_chunks fun k => x (ix2 r k) * w (ix2 k c)]
  exact congrArg (· + b (ix1 c)) (Finset.sum_congr rfl fun s _ => hpart s)

end Cert.Spec

end
-- ==== Proof.RefValue.lean ====
/-
  The reference computes the specification: a full 4096-term dot per entry, plus the bias row repeated on every row.
-/
import proofs.«155357_j81243601371171_1_alg».proof.Proof.Gen.ReferenceIdeal.Read
import proofs.«155357_j81243601371171_1_alg».proof.Proof.Spec

noncomputable section

open scoped BigOperators

namespace Cert.ReferenceIdeal.RefValue

open Cert.ReferenceIdeal Cert.ReferenceIdeal.Gen Idealize.ShloMosaic Idealize.ShloMosaic.ValueIdx

/-- Entry i of the reference's result: the dot of x's row with w's column over all 4096 positions, plus the bias of
    i's column (the bias is first laid out as one row and then repeated down the rows). -/
theorem result_eq (x w : (⟨S4096x4096, .f32⟩ : BufTy).Contents (Elt Ideal)) (b : (⟨S4096, .f32⟩ : BufTy).Contents (Elt Ideal)) :
    Read.val_main_v3 (F := Ideal) x w b = Cert.Spec.linear x w b := by
  funext i
  rw [Read.val_main_v3_apply, Read.val_main_v0_apply, Read.val_main_v2_apply, Read.val_main_v1_apply]
  have el : ∀ k : Fin 4096, Read.lidx_main_v0 i k = ix2 (Cert.Spec.rowOf i) k := fun k =>
    funext fun a => by match a with | ⟨0, _⟩ => rfl | ⟨1, _⟩ => rfl
  have er : ∀ k : Fin 4096, Read.ridx_main_v0 i k = ix2 k (Cert.Spec.colOf i) := fun k =>
    funext fun a => by match a with | ⟨0, _⟩ => rfl | ⟨1, _⟩ => rfl
  have eb : Read.idx_main_v1 (Read.idx_main_v2 i) = ix1 (Cert.Spec.colOf i) :=
    funext fun a => by match a with | ⟨0, _⟩ => rfl
  simp only [el, er, eb]
  rfl

end Cert.ReferenceIdeal.RefValue

end
-- ==== Proof.Pieces.lean ====
/-
  What one run of the kernel body leaves behind, read back as values.  The body keeps a 1024×1024 accumulator in a
  scratch buffer across the three grid axes' innermost one (the K axis).  At the first K step it stores a zero block,
  reads it back and stores "zero block + x·w"; at every later K step it stores "what the step before left + x·w"; at
  the last K step it then reads the accumulator once more and stores "accumulator + bias row" into the output block.
  Each lemma below says that the list of stores a run of one control case found, read back over the whole buffer,
  is that one closed term of the blocks the run loaded.
-/
import proofs.«155357_j81243601371171_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

/-- The whole-block rectangles start at the origin (rank 2). -/
theorem origin2 : (![0, 0] : Fin 2 → Nat) = fun _ => 0 := funext fun a => by fin_cases a <;> rfl
/-- The bias block's rectangle starts at the origin (rank 1). -/
theorem origin1 : (![0] : Fin 1 → Nat) = fun _ => 0 := funext fun a => by fin_cases a; rfl

/-- First K step: the accumulator ends at "zero block + x·w" (the zero block stored first and read back). -/
theorem acc_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) origin2, View.readCov_unit_zero (S := S1024x1024) _ origin2]
  simp only [View.readAt_eq_ld, harg3.read_unread, harg4.read_unread, View.ld_unit_zero (S := S1024x1024) origin2]

/-- A middle K step: the accumulator ends at "what it held + x·w". -/
theorem acc_middle (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero origin2]
  simp only [View.readAt_eq_ld, harg3.read_unread, harg4.read_unread, harg7.read_unread,
    View.ld_unit_zero (S := S1024x1024) origin2]

/-- The last K step: the accumulator again ends at "what it held + x·w" … -/
theorem acc_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero origin2]
  simp only [View.readAt_eq_ld, harg3.read_unread, harg4.read_unread, harg7.read_unread,
    View.ld_unit_zero (S := S1024x1024) origin2]

/-- … and the output block is that final accumulator plus the bias row, on every row. -/
theorem out_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1024 .f32) (xs0 : Vec F S1024x1024 .f32) :
    out0_C_3 c i arg3 harg3 arg4 harg4 arg5 harg5 arg6 harg6 arg7 harg7 hc0 hc1 x0 x1 x2 xs0 = k0_pay3 x2 (k0_pay2 xs0 x0 x1) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero origin2]
  simp only [View.readAt_eq_ld, harg3.read_unread, harg4.read_unread, harg5.read_unread, harg7.read_unread,
    View.readCov_unit_zero (S := S1024x1024) _ origin2, View.ld_unit_zero (S := S1024x1024) origin2,
    View.ld_unit_zero (S := S1024) origin1]

end Cert.KernelIdeal.Pieces

end
-- ==== Proof.Payload.lean ====
/-
  The body's three stored values, read at one entry, over the extended reals.

  A block is 1024×1024.  The zero block is 0 everywhere.  One K step leaves, at entry (p, q), what the accumulator
  held there plus the dot of row p of the x block with column q of the w block (the matrix unit started from a zero
  accumulator is just that 1024-term sum; the change of float format before it is the identity here).  The closing
  step adds to entry (p, q) the bias block's entry q, the same on every row p.
-/
import proofs.«155357_j81243601371171_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The zero block is 0 at every entry. -/
theorem zero_apply (j : S1024x1024.Idx) : (k0_pay1 (F := Ideal)) j = 0 := by
  simp only [k0_pay1, shapeCast_self]
  exact Ideal.ofBits_zero_f32

/-! ### The block product's operand indices: output entry (p, q) and contraction position k meet x at (p, k) and w at (k, q) -/

theorem lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_contr (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_contr (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product from a zero accumulator, at entry (p, q): row p of x against column q of w. -/
theorem product_apply (x w : Vec Ideal S1024x1024 .bf16) (p q : Fin 1024) :
    matmul (F := Ideal) (φ₁ := .bf16) (φ₂ := .bf16) dot_S1024x1024_S1024x1024_S1024x1024_1_0_0_1_n_n none x w (constant (F := Ideal) S1024x1024 .f32 0x00000000#32) (ix2 p q)
      = (∑ k : Fin 1024, x (ix2 p k) * w (ix2 k q) : EReal) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_row _ _
    | ⟨1, _⟩ => exact (lhs_contr _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_contr _ _).trans hk
    | ⟨1, _⟩ => exact rhs_col _ _)
  rw [el, er]

/-- One K step at entry (p, q): what the accumulator held plus the dot of x's row p with w's column q. -/
theorem step_apply (acc : Vec Ideal S1024x1024 .f32) (x w : Vec Ideal S1024x1024 .bf16) (p q : Fin 1024) :
    k0_pay2 (F := Ideal) acc x w (ix2 p q) = (acc (ix2 p q) + ∑ k : Fin 1024, x (ix2 p k) * w (ix2 k q) : EReal) := by
  simp only [k0_pay2, shapeCast_self]
  exact congrArg (acc (ix2 p q) + ·) (product_apply x w p q)

/-- The bias row broadcast over the rows, at entry (p, q): the bias block's entry q. -/
theorem bias_row_apply (b : Vec Ideal S1024 .f32) (p q : Fin 1024) :
    broadcastTo S1024x1024 (shapeCast S1x1024 b shapeCasts_S1024_S1x1024) broadcasts_S1x1024_S1024x1024 (ix2 p q) = (b (ix1 q) : EReal) := by
  refine (broadcastTo_apply _ broadcasts_S1x1024_S1024x1024 (ix2 p q) (ix2 (0 : Fin 1) q) (fun a => ?_)).trans ?_
  · match a with
    | ⟨0, _⟩ => show (0 : ℕ) = if (1 : ℕ) = 1 then 0 else p.val; rw [if_pos rfl]
    | ⟨1, _⟩ => show q.val = if (1024 : ℕ) = 1 then 0 else q.val; rw [if_neg (by decide)]
  · refine (shapeCast_addUnit_apply (n := 1) ![1024] b shapeCasts_S1024_S1x1024 (ix2 (0 : Fin 1) q)).trans ?_
    exact congrArg b (funext fun a => by match a with | ⟨0, _⟩ => rfl)

/-- The closing step at entry (p, q): the accumulator's entry plus the bias block's entry q. -/
theorem close_apply (b : Vec Ideal S1024 .f32) (acc : Vec Ideal S1024x1024 .f32) (p q : Fin 1024) :
    k0_pay3 (F := Ideal) b acc (ix2 p q) = (acc (ix2 p q) + b (ix1 q) : EReal) := by
  simp only [k0_pay3]
  exact congrArg (acc (ix2 p q) + ·) (bias_row_apply b p q)

end Cert.KernelIdeal.Payload

end
-- ==== Proof.Blocks.lean ====
/-
  Where each block lies in its array.

  The grid has 4·4·4 points, numbered t = 16·I + 4·J + K with I the row block of the output, J its column block and K
  the step along the contraction.  At point t the kernel sees the 1024×1024 block (I, K) of x, block (K, J) of w, the
  1024-block J of the bias, and writes block (I, J) of the result.  So entry (p, k) of the x block is entry
  (1024·I + p, 1024·K + k) of x, and likewise for the others.  The two matrices reach the kernel through a change of
  float format, which over the extended reals is the identity.
-/
import proofs.«155357_j81243601371171_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- A point's number is below 64. -/
theorem point_lt (t : Fin cfg0.N) : t.val < 64 := lt_of_lt_of_eq t.isLt (show cfg0.N = 64 from N_0)

/-- The array row of row p of the blocks in row block I = t / 16. -/
abbrev rowAt (t : Fin cfg0.N) (p : Fin 1024) : Fin 4096 :=
  ⟨1024 * (t.val / 16) + p.val, by have := point_lt t; have := p.isLt; omega⟩
/-- The array column of column q of the blocks in column block J = t / 4 % 4. -/
abbrev colAt (t : Fin cfg0.N) (q : Fin 1024) : Fin 4096 :=
  ⟨1024 * (t.val / 4 % 4) + q.val, by have := q.isLt; omega⟩
/-- The contraction position of position k of the blocks at step K = t % 4. -/
abbrev midAt (t : Fin cfg0.N) (k : Fin 1024) : Fin 4096 :=
  ⟨1024 * (t.val % 4) + k.val, by have := k.isLt; omega⟩

/-- The block index of every window at every point, in closed form (decided over the 64 points). -/
theorem block_index : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 1) = t.val / 4 % 4
    ∧ win0_3.index t (0 : Fin 2) = t.val / 16 ∧ win0_3.index t (1 : Fin 2) = t.val / 4 % 4 :=
  (by decide +kernel : ∀ t : Fin grid0.N, _)

/-- The x window's array is x after the format change. -/
theorem x_array (c : Dev nD) :
    (V m c main_v0 : S4096x4096.Idx → Elt F .bf16) = truncf .bf16 (m ((c : Thread nD τ).loc main_arg0)) bitsLt_bf16_f32 := by
  dsimp only [Gen.V, Gen.hostOps0]; after_results

/-- The w window's array is w after the format change. -/
theorem w_array (c : Dev nD) :
    (V m c main_v1 : S4096x4096.Idx → Elt F .bf16) = truncf .bf16 (m ((c : Thread nD τ).loc main_arg1)) bitsLt_bf16_f32 := by
  dsimp only [Gen.V, Gen.hostOps0]; after_results

/-- Entry (p, k) of the x block at point t. -/
theorem x_block (c : Dev nD) (t : Fin cfg0.N) (p k : Fin 1024) :
    (iblk m c 0 t : Vec F S1024x1024 .bf16) (ix2 p k) = (V m c main_v0 : S4096x4096.Idx → Elt F .bf16) (ix2 (rowAt t p) (midAt t k)) := by
  obtain ⟨e0, e1, -⟩ := block_index t
  unfold iblk
  rw [View.read_apply]
  show V m c main_v0 _ = V m c main_v0 _
  congr 1
  funext a
  apply Fin.ext
  match a with
  | ⟨0, _⟩ => show win0_0.index t 0 * 1024 + 1 * p.val = 1024 * (t.val / 16) + p.val; rw [e0]; omega
  | ⟨1, _⟩ => show win0_0.index t 1 * 1024 + 1 * k.val = 1024 * (t.val % 4) + k.val; rw [e1]; omega

/-- Entry (k, q) of the w block at point t. -/
theorem w_block (c : Dev nD) (t : Fin cfg0.N) (k q : Fin 1024) :
    (iblk m c 1 t : Vec F S1024x1024 .bf16) (ix2 k q) = (V m c main_v1 : S4096x4096.Idx → Elt F .bf16) (ix2 (midAt t k) (colAt t q)) := by
  obtain ⟨-, -, e0, e1, -⟩ := block_index t
  unfold iblk
  rw [View.read_apply]
  show V m c main_v1 _ = V m c main_v1 _
  congr 1
  funext a
  apply Fin.ext
  match a with
  | ⟨0, _⟩ => show win0_1.index t 0 * 1024 + 1 * k.val = 1024 * (t.val % 4) + k.val; rw [e0]; omega
  | ⟨1, _⟩ => show win0_1.index t 1 * 1024 + 1 * q.val = 1024 * (t.val / 4 % 4) + q.val; rw [e1]; omega

/-- Entry q of the bias block at point t. -/
theorem b_block (c : Dev nD) (t : Fin cfg0.N) (q : Fin 1024) :
    (iblk m c 2 t : Vec F S1024 .f32) (ix1 q) = m ((c : Thread nD τ).loc main_arg2) (ix1 (colAt t q)) := by
  obtain ⟨-, -, -, -, e0, -⟩ := block_index t
  unfold iblk
  rw [View.read_apply]
  show V m c main_arg2 _ = m ((c : Thread nD τ).loc main_arg2) _
  rw [V_main_arg2]
  congr 1
  funext a
  apply Fin.ext
  match a with
  | ⟨0, _⟩ => show win0_2.index t 0 * 1024 + 1 * q.val = 1024 * (t.val / 4 % 4) + q.val; rw [e0]; omega

/-- Entry (p, q) of the result block written at point t lies at (1024·I + p, 1024·J + q) of the result. -/
theorem out_entry (t : Fin cfg0.N) (j : S1024x1024.Idx) :
    (((cfg0.win 3).blk t).view.emb j : S4096x4096.Idx) = ix2 (rowAt t ⟨(j 0).val, (j 0).isLt⟩) (colAt t ⟨(j 1).val, (j 1).isLt⟩) := by
  obtain ⟨-, -, -, -, -, e0, e1⟩ := block_index t
  funext a
  apply Fin.ext
  match a with
  | ⟨0, _⟩ => show win0_3.index t 0 * 1024 + 1 * (j 0).val = 1024 * (t.val / 16) + (j 0).val; rw [e0]; omega
  | ⟨1, _⟩ => show win0_3.index t 1 * 1024 + 1 * (j 1).val = 1024 * (t.val / 4 % 4) + (j 1).val; rw [e1]; omega

end Cert.KernelIdeal.Blocks

end
-- ==== Proof.Accum.lean ====
/-
  The accumulator along the contraction, and what the last step writes.

  For a fixed output block (I, J) the four points 16·I + 4·J + K, K = 0 … 3, run one after another.  The first resets
  the accumulator to "zero + its partial product", each later one adds its own partial product to what the point
  before left, and the last one also writes "accumulator + bias" as the output block.  So after step K the accumulator's
  entry (p, q) is 0 plus the sum, over the steps 0 … K, of the dot of row p of that step's x block with column q of its
  w block; at K = 3 these four partial dots are the four chunks of the full 4096-term dot of the specification, and the
  written entry is the specification's.
-/
import proofs.«155357_j81243601371171_1_alg».proof.Proof.Gen.KernelIdeal.Value
import proofs.«155357_j81243601371171_1_alg».proof.Proof.Pieces
import proofs.«155357_j81243601371171_1_alg».proof.Proof.Payload
import proofs.«155357_j81243601371171_1_alg».proof.Proof.Blocks
import proofs.«155357_j81243601371171_1_alg».proof.Proof.Spec

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx
open Idealize.ShloMosaic.Pipeline (Dat)

section AnyValues

variable {F : FTy → Type} [FloatOps F]
variable (m : (ℓ : Loc nD τ sig) → Buf (Elt F) ℓ)

/-- The x block, the w block and the bias block the body sees at point t. -/
abbrev xblk (c : Dev nD) (t : Fin cfg0.N) : Vec F S1024x1024 .bf16 := iblk m c 0 t
abbrev wblk (c : Dev nD) (t : Fin cfg0.N) : Vec F S1024x1024 .bf16 := iblk m c 1 t
abbrev bblk (c : Dev nD) (t : Fin cfg0.N) : Vec F S1024 .f32 := iblk m c 2 t

/-- At a first step (K = 0) the accumulator is reset: the zero block plus the step's product, whatever it held. -/
theorem scratch_reset (c : Dev nD) (n : ℕ) (hb : n < cfg0.N) (h0 : n % 4 = 0) (acc : Vec F S1024x1024 .f32) :
    Value.scAt0_0 m c n hb acc = k0_pay2 (k0_pay1 (F := F)) (xblk m c ⟨n, hb⟩) (wblk m c ⟨n, hb⟩) := by
  have h1 : ¬n % 4 = 3 := by omega
  unfold Value.scAt0_0
  rw [dif_pos h0, dif_neg h1]
  exact Pieces.acc_first c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) _ _ (iblk m c 0 ⟨n, hb⟩) (iblk m c 1 ⟨n, hb⟩) (iblk m c 2 ⟨n, hb⟩)

/-- At every later step (K = 1, 2, 3) it becomes what it held plus the step's product. -/
theorem scratch_step (c : Dev nD) (n : ℕ) (hb : n < cfg0.N) (h0 : ¬n % 4 = 0) (acc : Vec F S1024x1024 .f32) :
    Value.scAt0_0 m c n hb acc = k0_pay2 acc (xblk m c ⟨n, hb⟩) (wblk m c ⟨n, hb⟩) := by
  unfold Value.scAt0_0
  by_cases h1 : n % 4 = 3
  · rw [dif_neg h0, dif_pos h1]
    exact Pieces.acc_last c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) _ _ (iblk m c 0 ⟨n, hb⟩) (iblk m c 1 ⟨n, hb⟩) (iblk m c 2 ⟨n, hb⟩) acc
  · rw [dif_neg h0, dif_neg h1]
    exact Pieces.acc_middle c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) _ _ (iblk m c 0 ⟨n, hb⟩) (iblk m c 1 ⟨n, hb⟩) (iblk m c 2 ⟨n, hb⟩) acc

/-- At a last step (K = 3) the output block is the accumulator as that step leaves it, plus the bias row. -/
theorem out_at_last (c : Dev nD) (t : Fin cfg0.N) (h1 : t.val % 4 = 3) :
    (outsAt0 m c t.val t.isLt).1 = k0_pay3 (bblk m c t) (outsAt0 m c t.val t.isLt).2 := by
  have h0 : ¬t.val % 4 = 0 := by omega
  rw [outsAt0_C m c t h0 h1]
  dsimp only
  exact (Pieces.out_last c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).trans
    (congrArg (k0_pay3 (bblk m c t)) (Pieces.acc_last c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).symm)

end AnyValues

section OverExtendedReals

variable (m : (ℓ : Loc nD τ sig) → Buf (Elt Ideal) ℓ)

/-- The partial dot point n contributes to entry (p, q): row p of its x block against column q of its w block
    (0 for a number past the grid, which no statement below uses). -/
def part (c : Dev nD) (n : ℕ) (p q : Fin 1024) : EReal :=
  if h : n < cfg0.N then ∑ k : Fin 1024, xblk m c ⟨n, h⟩ (ix2 p k) * wblk m c ⟨n, h⟩ (ix2 k q) else 0

/-- THE ACCUMULATOR after point t, at entry (p, q): 0 plus the partial dots of the steps from the block's first step
    (point 4·(t / 4)) up to t. -/
theorem scratch_fold (c : Dev nD) (t : Fin cfg0.N) (p q : Fin 1024) :
    (outsAt0 m c t.val t.isLt).2 (ix2 p q) = 0 + ∑ s ∈ Finset.range (t.val % 4 + 1), part m c (4 * (t.val / 4) + s) p q := by
  rw [Value.soutsAt0_0_eq]
  refine Pipeline.accAt_add_apply (ι := S1024x1024.Idx) (β := EReal) _ _ (fun _ => 0)
    (fun n i => part m c n ⟨(i 0).val, (i 0).isLt⟩ ⟨(i 1).val, (i 1).isLt⟩) (4 * (t.val / 4)) 3 ?_ ?_ (t.val % 4) (by omega) _ (ix2 p q)
  · intro h i
    obtain ⟨p', q', rfl⟩ : ∃ (p' q' : Fin 1024), i = ix2 p' q' := ⟨i 0, i 1, eq_ix2 i⟩
    rw [scratch_reset m c _ h (by omega), Payload.step_apply, Payload.zero_apply]
    unfold part
    rw [dif_pos h]
  · intro n h acc i h1 h2
    obtain ⟨p', q', rfl⟩ : ∃ (p' q' : Fin 1024), i = ix2 p' q' := ⟨i 0, i 1, eq_ix2 i⟩
    rw [scratch_step m c n h (by omega), Payload.step_apply]
    unfold part
    rw [dif_pos h]

/-- THE WRITTEN ENTRY.  At a last step t, entry (p, q) of the output block is entry (1024·I + p, 1024·J + q) of
    x·w + b: the four partial dots are the four chunks of the full dot (the specification's law of chunks), the blocks
    are the arrays' (x and w through the format change, the identity here), and the bias entry is b's at that column. -/
theorem written_entry (c : Dev nD) (t : Fin cfg0.N) (h3 : t.val % 4 = 3) (p q : Fin 1024) :
    k0_pay3 (F := Ideal) (bblk m c t) (outsAt0 m c t.val t.isLt).2 (ix2 p q)
      = Cert.Spec.linear (m ((c : Thread nD τ).loc main_arg0)) (m ((c : Thread nD τ).loc main_arg1)) (m ((c : Thread nD τ).loc main_arg2))
          (ix2 (Blocks.rowAt t p) (Blocks.colAt t q)) := by
  have hN := Blocks.point_lt t
  rw [Payload.close_apply, scratch_fold, h3, Finset.sum_range (fun s => part m c (4 * (t.val / 4) + s) p q)]
  have eb : bblk m c t (ix1 q) = m ((c : Thread nD τ).loc main_arg2) (ix1 (Blocks.colAt t q)) := Blocks.b_block m c t q
  rw [eb]
  refine Cert.Spec.linear_of_chunks _ _ _ (Blocks.rowAt t p) (Blocks.colAt t q) (fun s => part m c (4 * (t.val / 4) + s.val) p q) (fun s => ?_)
  have hs := s.isLt
  have hn : 4 * (t.val / 4) + s.val < cfg0.N := lt_of_lt_of_eq (by omega) (show (64 : ℕ) = cfg0.N from N_0.symm)
  show part m c (4 * (t.val / 4) + s.val) p q = _
  unfold part
  rw [dif_pos hn]
  refine Finset.sum_congr rfl fun k _ => ?_
  have ex : xblk m c ⟨4 * (t.val / 4) + s.val, hn⟩ (ix2 p k) = _ := Blocks.x_block m c ⟨4 * (t.val / 4) + s.val, hn⟩ p k
  have ew : wblk m c ⟨4 * (t.val / 4) + s.val, hn⟩ (ix2 k q) = _ := Blocks.w_block m c ⟨4 * (t.val / 4) + s.val, hn⟩ k q
  rw [ex, ew, Blocks.x_array, Blocks.w_array]
  have e1 : Blocks.rowAt ⟨4 * (t.val / 4) + s.val, hn⟩ p = Blocks.rowAt t p :=
    Fin.ext (by show 1024 * ((4 * (t.val / 4) + s.val) / 16) + p.val = 1024 * (t.val / 16) + p.val; omega)
  have e2 : Blocks.midAt ⟨4 * (t.val / 4) + s.val, hn⟩ k = Cert.Spec.inChunk s k :=
    Fin.ext (by show 1024 * ((4 * (t.val / 4) + s.val) % 4) + k.val = 1024 * s.val + k.val; omega)
  have e3 : Blocks.colAt ⟨4 * (t.val / 4) + s.val, hn⟩ q = Blocks.colAt t q :=
    Fin.ext (by show 1024 * ((4 * (t.val / 4) + s.val) / 4 % 4) + q.val = 1024 * (t.val / 4 % 4) + q.val; omega)
  rw [e1, e2, e3]
  rfl

end OverExtendedReals

end Cert.KernelIdeal.Accum

end
-- ==== Proof.KernelValue.lean ====
/-
  The result array after the kernel's run, over the extended reals: it holds x·w + b.

  Only the last step along the contraction (K = 3) writes its output block back, and there the block's entries are the
  specification's (the module on the accumulator).  The sixteen blocks (I, J) written at those points tile the 4096×4096
  result, so every entry of it is written, and the array ends as the specification of the launch-time arguments.
-/
import proofs.«155357_j81243601371171_1_alg».proof.Proof.Gen.KernelIdeal.Value
import proofs.«155357_j81243601371171_1_alg».proof.Proof.Accum

noncomputable section

namespace Cert.KernelIdeal.RefValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- What the result array ends holding: x·w + b of the arguments as launched. -/
abbrev result (c : Dev nD) : Buf (Elt Ideal) ((c : Thread nD τ).loc main_v2) :=
  Cert.Spec.linear (m ((c : Thread nD τ).loc main_arg0)) (m ((c : Thread nD τ).loc main_arg1)) (m ((c : Thread nD τ).loc main_arg2))

/-- The written entry of the module on the accumulator, at any index of the block. -/
theorem written_at (c : Dev nD) (t : Fin cfg0.N) (h3 : t.val % 4 = 3) (j : S1024x1024.Idx) :
    k0_pay3 (F := Ideal) (Accum.bblk m c t) (outsAt0 m c t.val t.isLt).2 j
      = result m c (ix2 (Blocks.rowAt t ⟨(j 0).val, (j 0).isLt⟩) (Blocks.colAt t ⟨(j 1).val, (j 1).isLt⟩)) := by
  obtain ⟨p, q, rfl⟩ : ∃ (p q : Fin 1024), j = ix2 p q := ⟨j 0, j 1, eq_ix2 j⟩
  exact Accum.written_entry m c t h3 p q

/-- WHAT A WRITING POINT WRITES BACK is its block of x·w + b. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  rw [Value.flushed3, Accum.out_at_last m c t h3]
  funext j
  exact (written_at m c t h3 j).trans (congrArg (result m c) (Blocks.out_entry t j).symm)

/-- An entry of the result is in point t's block iff each coordinate is in the block's range on its axis. -/
theorem mem_block (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v2).slice (win0_3.rect t)).set ↔ _
  rw [View.set_slice_whole, Rect.mem_set_unit]
  exact Iff.rfl

/-- Every entry (r, c) of the result lies in the block written at the last step of output block (r / 1024, c / 1024). -/
theorem cover (i : S4096x4096.Idx) : ∃ t : Fin cfg0.N, (cfg0.win 3).flush t = true ∧ i ∈ ((cfg0.win 3).blk t).view.set := by
  have h0 : (i 0).val < 4096 := (i 0).isLt
  have h1 : (i 1).val < 4096 := (i 1).isLt
  obtain ⟨n, hn⟩ : ∃ n : ℕ, n = 16 * ((i 0).val / 1024) + 4 * ((i 1).val / 1024) + 3 := ⟨_, rfl⟩
  have hlt : n < cfg0.N := lt_of_lt_of_eq (by omega) (show (64 : ℕ) = cfg0.N from N_0.symm)
  refine ⟨⟨n, hlt⟩, (flush0_3 ⟨n, hlt⟩).mpr (by show n % 4 = 3; omega), ?_⟩
  obtain ⟨-, -, -, -, -, e0, e1⟩ := Blocks.block_index ⟨n, hlt⟩
  dsimp only at e0 e1
  rw [mem_block]
  intro a
  match a with
  | ⟨0, _⟩ => show win0_3.index ⟨n, hlt⟩ (0 : Fin 2) * 1024 ≤ (i 0).val ∧ (i 0).val < win0_3.index ⟨n, hlt⟩ (0 : Fin 2) * 1024 + 1024; rw [e0]; omega
  | ⟨1, _⟩ => show win0_3.index ⟨n, hlt⟩ (1 : Fin 2) * 1024 ≤ (i 1).val ∧ (i 1).val < win0_3.index ⟨n, hlt⟩ (1 : Fin 2) * 1024 + 1024; rw [e1]; omega

/-- So the result array ends holding x·w + b. -/
theorem final (c : Dev nD) : (dats m 0 c).arrAt 3 cfg0.N = result m c :=
  (dats m 0 c).arrAt_eq_of_cover 3 (result m c) (flushed_eq m c) cover

/-- The kernel's run, read: the result at x·w + b of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelIdeal.RefValue

end
-- ==== Proof.lean ====
/-
  The claim: a tiled dense layer against jnp's x @ w + b, over the extended reals.

  The kernel changes x and w to a shorter float format (the identity over the extended reals), then, on a 4·4·4 grid of
  1024×1024 blocks, accumulates the block products along the contraction in a carried accumulator and, at the last
  step, writes "accumulator + bias row" to the output block.  The reference takes the full 4096-term dot per entry and
  adds the bias.  Both end with  ∑ₖ x[r,k]·w[k,c] + b[c]  at entry (r, c): the kernel's four partial dots are the four
  consecutive chunks of the reference's sum, and a finite sum of extended reals may be regrouped freely (addition
  there is commutative and associative), so the precondition's finiteness is never opened.

  The three frames are the generated ones (the reference's is its run with the result dropped); the idealization step
  rewrote nothing, so its statement is trivial.
-/
import proofs.«155357_j81243601371171_1_alg».proof.Defs
import proofs.«155357_j81243601371171_1_alg».proof.Proof.Gen.Kernel
import proofs.«155357_j81243601371171_1_alg».proof.Proof.Gen.Kernel.Frame
import proofs.«155357_j81243601371171_1_alg».proof.Proof.Gen.KernelIdeal
import proofs.«155357_j81243601371171_1_alg».proof.Proof.Gen.KernelIdeal.Frame
import proofs.«155357_j81243601371171_1_alg».proof.Proof.Gen.ReferenceIdeal
import proofs.«155357_j81243601371171_1_alg».proof.Proof.Gen.Pre_finite_inputs
import proofs.«155357_j81243601371171_1_alg».proof.Proof.Gen.ReferenceIdeal.Run
import proofs.«155357_j81243601371171_1_alg».proof.Proof.Gen.ReferenceIdeal.Read
import proofs.«155357_j81243601371171_1_alg».proof.Proof.RefValue
import proofs.«155357_j81243601371171_1_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is four host operations: its run ends, with the arguments unchanged. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From arguments that agree, both programs end with x·w + b of them. -/
theorem algebraic : Cert.algebraic_KernelIdeal_ReferenceIdeal := by
  intro m ρ m' ρ' _ hagree
  refine ⟨fun c => Cert.KernelIdeal.RefValue.result m c, Cert.KernelIdeal.RefValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
